-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S2048x1 : Shape := ⟨2, ![2048, 1]⟩
abbrev S1 : Shape := ⟨1, ![1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1024x1024 .f32) (main_arg3 : FVec F S2048x1 .f32) (main_arg4 : FVec F S1 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg4 main_v13 main_v16
-- ==== Kernel.lean ====
abbrev S4096x1024 : Shape := ⟨2, ![4096, 1024]⟩
abbrev S1024x1024 : Shape := ⟨2, ![1024, 1024]⟩
abbrev S2048x1 : Shape := ⟨2, ![2048, 1]⟩
abbrev S1 : Shape := ⟨1, ![1]⟩
abbrev S1024x1 : Shape := ⟨2, ![1024, 1]⟩
abbrev S4096x1 : Shape := ⟨2, ![4096, 1]⟩
abbrev S1x4096 : Shape := ⟨2, ![1, 4096]⟩
abbrev S4096x4096 : Shape := ⟨2, ![4096, 4096]⟩
abbrev S1x1024 : Shape := ⟨2, ![1, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S2048x1, .f32⟩
  | .hbm, ⟨4, _⟩ => ⟨S1, .f32⟩
  | .hbm, ⟨5, _⟩ => ⟨S1024x1, .f32⟩
  | .hbm, ⟨6, _⟩ => ⟨S1024x1, .f32⟩
  | .hbm, ⟨7, _⟩ => ⟨S4096x1, .f32⟩
  | .hbm, ⟨8, _⟩ => ⟨S4096x1, .f32⟩
  | .hbm, ⟨9, _⟩ => ⟨S1x4096, .f32⟩
  | .hbm, ⟨10, _⟩ => ⟨S4096x1024, .f32⟩
  | .hbm, ⟨11, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1, .f32⟩
  | .local _ .vmem, ⟨10, _⟩ => ⟨S1024x1, .f32⟩
  | .local _ .vmem, ⟨11, _⟩ => ⟨S1x1024, .f32⟩
  | .local _ .vmem, ⟨12, _⟩ => ⟨S1x1024, .f32⟩
  | .local _ .vmem, ⟨13, _⟩ => ⟨S1, .f32⟩
  | .local _ .vmem, ⟨14, _⟩ => ⟨S1024x1024, .f32⟩
  | .local _ .vmem, ⟨15, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S2048x1_S1024x1_0_0 : S2048x1.Slices ![0, 0] S1024x1
  slices_S2048x1_S1024x1_1024_0 : S2048x1.Slices ![1024, 0] S1024x1
  transposes_S4096x1_S1x4096_1_0 : S4096x1.Transposes [1, 0] S1x4096
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1_S1_0 : ∀ a, (![0] : Fin 1 → Nat) a + S1.size a ≤ S1.size a
  h_S1 : 0 < S1.numel
  inpos_S1_p0 : ∀ a, (![0] : Fin 1 → Nat) a < S1.size a
  dot_S4096x1024_S1024x1_S4096x1_1_0_0_1_n_n_wf : DotDims.WF S4096x1024 S1024x1 S4096x1 [1] [0] [0] [1] [] []
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .f32 = 32 ∨ (Rect.block (s := S4096x1024) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .f32 = 32 ∨ (Rect.block (s := S4096x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x4096.size a
  hwx1_5 : ∀ i : grid1.Coords, EltTy.bits .f32 = 32 ∨ (Rect.block (s := S4096x4096) S1024x1024.size (cc1_transform_5 i) (hinb1_5 i)).WholeWords (EltTy.packing .f32)

variable [Facts₀]

def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S2048x1 : Shape := ⟨2, ![2048, 1]⟩
abbrev S1 : Shape := ⟨1, ![1]⟩
abbrev S1024x4096 : Shape := ⟨2, ![1024, 4096]⟩
abbrev S4096x4096 : Shape := ⟨2, ![4096, 4096]⟩
abbrev S1024x1 : Shape := ⟨2, ![1024, 1]⟩
abbrev S4096x1 : Shape := ⟨2, ![4096, 1]⟩
abbrev S1x4096 : Shape := ⟨2, ![1, 4096]⟩
abbrev S1x1 : Shape := ⟨2, ![1, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S2048x1, .f32⟩
  | .hbm, ⟨4, _⟩ => ⟨S1, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S1024x1, .f32⟩
  | .hbm, ⟨9, _⟩ => ⟨S1024x1, .f32⟩
  | .hbm, ⟨10, _⟩ => ⟨S4096x1, .f32⟩
  | .hbm, ⟨11, _⟩ => ⟨S4096x1, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S1x1, .f32⟩
  | .hbm, ⟨18, _⟩ => ⟨S4096x4096, .f32⟩
  | .hbm, ⟨19, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S4096x1024_S1024x4096_1_0 : S4096x1024.Transposes [1, 0] S1024x4096
  slices_S2048x1_S1024x1_0_0 : S2048x1.Slices ![0, 0] S1024x1
  slices_S2048x1_S1024x1_1024_0 : S2048x1.Slices ![1024, 0] S1024x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x1024_S1024x1_S4096x1_1_0_0_1_n_n_wf : DotDims.WF S4096x1024 S1024x1 S4096x1 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf

class Facts : Prop extends Facts₀ where

variable [Facts]
-- ==== Proof.Spec.lean ====
/-
  The function both programs compute, over the extended reals, index by index.

  With `T`, `A` the target and argument spans (`[4096, 1024]`), `W` the bilinear weight (`[1024, 1024]`), `U` the linear
  weight (`[2048, 1]`: its upper half acts on targets, its lower half on arguments) and `b` the bias (`[1]`), the score
  of the pair `(i, j)` is

      ( Σ_h (Σ_k T[i,k]·W[k,h]) · A[j,h]  +  ( Σ_k T[i,k]·U[k]  +  Σ_k A[j,k]·U[1024+k] ) )  +  b[0],

  the sums and the three additions grouped exactly so. The definitions below build it in the order the tiled program
  does: the projected targets `T·W`, the two linear terms kept as a column and as a row, and the scores over them.
-/
import Idealize.ShloMosaic.PureOps.Ideal.Laws
import Idealize.ShloMosaic.Lib.ValueIdx

noncomputable section

namespace Cert.Biaffine

open Idealize.ShloMosaic Idealize.ShloMosaic.ValueIdx

abbrev Spans : Shape := ⟨2, ![4096, 1024]⟩
abbrev Weight : Shape := ⟨2, ![1024, 1024]⟩
abbrev Linear : Shape := ⟨2, ![2048, 1]⟩
abbrev Bias : Shape := ⟨1, ![1]⟩
abbrev Column : Shape := ⟨2, ![4096, 1]⟩
abbrev Row : Shape := ⟨2, ![1, 4096]⟩
abbrev Scores : Shape := ⟨2, ![4096, 4096]⟩

/-- The projected targets `T·W`: entry `(i, h)` is `Σ_k T[i,k]·W[k,h]`. -/
def projected (T : FVec Ideal Spans .f32) (W : FVec Ideal Weight .f32) : FVec Ideal Spans .f32 :=
  fun i => ∑ k : Fin 1024, T (ix2 (i 0) k) * W (ix2 k (i 1))

/-- The targets' linear term, a column: entry `(i, 0)` is `Σ_k T[i,k]·U[k]` (the upper half of `U`). -/
def targetTerm (T : FVec Ideal Spans .f32) (U : FVec Ideal Linear .f32) : FVec Ideal Column .f32 :=
  fun i => ∑ k : Fin 1024, T (ix2 (i 0) k) * U (ix2 (⟨0 + k.val, by have := k.isLt; omega⟩ : Fin 2048) (i 1))

/-- The arguments' linear term, a row: entry `(0, j)` is `Σ_k A[j,k]·U[1024+k]` (the lower half of `U`). -/
def argumentTerm (A : FVec Ideal Spans .f32) (U : FVec Ideal Linear .f32) : FVec Ideal Row .f32 :=
  fun i => ∑ k : Fin 1024, A (ix2 (i 1) k) * U (ix2 (⟨1024 + k.val, by have := k.isLt; omega⟩ : Fin 2048) (i 0))

/-- The scores from projected targets `P`, the arguments `A`, a column `tcol`, a row `arow` and the bias:
    `(Σ_h P[i,h]·A[j,h] + (tcol[i] + arow[j])) + b[0]`. -/
def scores (P A : FVec Ideal Spans .f32) (tcol : FVec Ideal Column .f32) (arow : FVec Ideal Row .f32)
    (b : FVec Ideal Bias .f32) : FVec Ideal Scores .f32 :=
  fun i => ((∑ h : Fin 1024, P (ix2 (i 0) h) * A (ix2 (i 1) h))
      + (tcol (ix2 (i 0) (0 : Fin 1)) + arow (ix2 (0 : Fin 1) (i 1)))) + b (ix1 (0 : Fin 1))

/-- The biaffine scores of the five arguments. -/
def biaffine (T A : FVec Ideal Spans .f32) (W : FVec Ideal Weight .f32) (U : FVec Ideal Linear .f32)
    (b : FVec Ideal Bias .f32) : FVec Ideal Scores .f32 :=
  scores (projected T W) A (targetTerm T U) (argumentTerm A U) b

end Cert.Biaffine

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.ProjectedValue.lean ====
/-
  The first tiled product: the array it leaves is the projected targets `T·W`.

  The grid has four points; point `t` reads rows `1024·t … 1024·t + 1023` of the targets (all 1024 columns) and the
  whole weight, multiplies them (the narrowing to bf16 is the identity on extended reals, and the product starts from a
  zero accumulator, so entry `(p, q)` of the block is `Σ_k x[p,k]·w[k,q]`), and writes the result back as the same rows
  of the output. So what point `t` writes back is block `t` of `projected T W`, the four row blocks cover the
  `[4096, 1024]` output, and the output array ends at `projected T W` of the two arrays as the region finds them.
-/
import proofs.«142175_j24129126269150_1_alg».proof.Proof.Gen.KernelIdeal.Frame
import proofs.«142175_j24129126269150_1_alg».proof.Proof.Spec
import proofs.«142175_j24129126269150_1_alg».proof.Proof.LibRowOps
import Idealize.ShloMosaic.Lib.Pipeline.Value
import Idealize.ShloMosaic.Lib.ValueIdx

set_option maxRecDepth 16384

noncomputable section

namespace Cert.KernelIdeal.ProjectedValue

open Cert.KernelIdeal Cert.KernelIdeal.Gen Cert.Biaffine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The body's product at `(p, q)`: the row `p` of the first block against the column `q` of the second. -/
theorem product_apply (x0 x1 : Vec Ideal S1024x1024 .f32) (p q : Fin 1024) :
    k0_pay1 (F := Ideal) x0 x1 (ix2 p q) = ∑ k : Fin 1024, x0 (ix2 p k) * x1 (ix2 k q) := by
  unfold k0_pay1
  exact Cert.RowOps.matmul_apply _ none _ _ p q

/-- The same at any index of the block. -/
theorem product_at (x0 x1 : Vec Ideal S1024x1024 .f32) (y : S1024x1024.Idx) :
    k0_pay1 (F := Ideal) x0 x1 y = ∑ k : Fin 1024, x0 (ix2 (y 0) k) * x1 (ix2 k (y 1)) := by
  conv_lhs => rw [eq_ix2 y]
  exact product_apply x0 x1 (y 0) (y 1)

/-- The index maps over the four points: the targets' block moves down its rows with the output's, the weight's block
    stays, and no block leaves column block 0. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 3 :=
  (by decide +kernel : ∀ t : Fin grid0.N, _)

/-- Every row block of the output is some point's. -/
theorem index_onto : ∀ q0 : Fin 4, ∃ t : Fin cfg0.N, win0_2.index t = ![q0.val, 0] :=
  (by decide +kernel : ∀ q0 : Fin 4, ∃ t : Fin grid0.N, win0_2.index t = ![q0.val, 0])

/-- An entry of the targets' block at point `t` is the entry of the array at the block's place. -/
theorem targets_block (c : Dev nD) (t : Fin cfg0.N) (x : S1024x1024.Idx) (i : S4096x1024.Idx)
    (h0 : (i 0).val = win0_0.index t (0 : Fin 2) * 1024 + (x 0).val) (h1 : (i 1).val = win0_0.index t (1 : Fin 2) * 1024 + (x 1).val) :
    (iblk0 V c 0 t : Vec Ideal S1024x1024 .f32) x = (V c main_arg0 : S4096x1024.Idx → Elt Ideal .f32) i := by
  unfold iblk0
  rw [View.read_apply]
  show (V c main_arg0 : S4096x1024.Idx → Elt Ideal .f32) _ = (V c main_arg0 : S4096x1024.Idx → Elt Ideal .f32) i
  refine congrArg (V c main_arg0 : S4096x1024.Idx → Elt Ideal .f32) (funext fun a => Fin.ext ?_)
  match a with
  | ⟨0, _⟩ => show win0_0.index t (0 : Fin 2) * 1024 + 1 * (x 0).val = (i 0).val; omega
  | ⟨1, _⟩ => show win0_0.index t (1 : Fin 2) * 1024 + 1 * (x 1).val = (i 1).val; omega

/-- An entry of the weight's block at point `t` is the entry of the array at the block's place. -/
theorem weight_block (c : Dev nD) (t : Fin cfg0.N) (x : S1024x1024.Idx) (i : S1024x1024.Idx)
    (h0 : (i 0).val = win0_1.index t (0 : Fin 2) * 1024 + (x 0).val) (h1 : (i 1).val = win0_1.index t (1 : Fin 2) * 1024 + (x 1).val) :
    (iblk0 V c 1 t : Vec Ideal S1024x1024 .f32) x = (V c main_arg2 : S1024x1024.Idx → Elt Ideal .f32) i := by
  unfold iblk0
  rw [View.read_apply]
  show (V c main_arg2 : S1024x1024.Idx → Elt Ideal .f32) _ = (V c main_arg2 : S1024x1024.Idx → Elt Ideal .f32) i
  refine congrArg (V c main_arg2 : S1024x1024.Idx → Elt Ideal .f32) (funext fun a => Fin.ext ?_)
  match a with
  | ⟨0, _⟩ => show win0_1.index t (0 : Fin 2) * 1024 + 1 * (x 0).val = (i 0).val; omega
  | ⟨1, _⟩ => show win0_1.index t (1 : Fin 2) * 1024 + 1 * (x 1).val = (i 1).val; omega

/-- What point `t` writes back is block `t` of the projected targets. -/
theorem flushed_eq (c : Dev nD) (t : Fin cfg0.N) :
    (dat0 V c).flushed 2 t = ((cfg0.win 2).blk t).view.read (Elt Ideal) (projected (V c main_arg0) (V c main_arg2)) := by
  show (cfg0.win 2).cut (grid0.coords t) ((dat0 V c).after 2 t) = _
  rw [after0_2]
  unfold out0_2
  rw [View.canon_unit_zero offsets_zero]
  simp only [View.ld_unit_zero (S := S1024x1024) offsets_zero]
  obtain ⟨e0, e1, e2, e3, e4, e5⟩ := index_facts t
  have key : ∀ y : S1024x1024.Idx, k0_pay1 (F := Ideal) (iblk0 V c 0 t) (iblk0 V c 1 t) y
      = projected (V c main_arg0) (V c main_arg2) (((cfg0.win 2).blk t).view.emb y) := by
    intro y
    refine (product_at (iblk0 V c 0 t) (iblk0 V c 1 t) y).trans ?_
    unfold projected
    refine Finset.sum_congr rfl fun k _ => ?_
    have hr : ((((cfg0.win 2).blk t).view.emb y) 0).val = win0_2.index t (0 : Fin 2) * 1024 + 1 * (y 0).val := rfl
    have hc : ((((cfg0.win 2).blk t).view.emb y) 1).val = win0_2.index t (1 : Fin 2) * 1024 + 1 * (y 1).val := rfl
    have hA := targets_block V c t (ix2 (y 0) k) (ix2 ((((cfg0.win 2).blk t).view.emb y) 0) k)
      (by show ((((cfg0.win 2).blk t).view.emb y) 0).val = win0_0.index t (0 : Fin 2) * 1024 + (y 0).val; omega)
      (by show k.val = win0_0.index t (1 : Fin 2) * 1024 + k.val; omega)
    have hB := weight_block V c t (ix2 k (y 1)) (ix2 k ((((cfg0.win 2).blk t).view.emb y) 1))
      (by show k.val = win0_1.index t (0 : Fin 2) * 1024 + k.val; omega)
      (by show ((((cfg0.win 2).blk t).view.emb y) 1).val = win0_1.index t (1 : Fin 2) * 1024 + (y 1).val; omega)
    rw [hA, hB]
  exact funext key

/-- An index of the output is in point `t`'s block iff each coordinate is in the block's range on its axis. -/
theorem mem_block (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v5).slice (win0_2.rect t)).set ↔ _
  rw [View.set_slice_whole, Rect.mem_set_unit]
  exact Iff.rfl

/-- Every index of the output is in the block of the point that holds its row. -/
theorem covered (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ := index_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the region: the projected targets of the two arrays as the region finds them. -/
theorem final (c : Dev nD) : (dat0 V c).arrAt 2 cfg0.N = projected (V c main_arg0) (V c main_arg2) :=
  (dat0 V c).arrAt_eq_of_cover 2 (projected (V c main_arg0) (V c main_arg2)) (fun t _ => flushed_eq V c t) covered

end Cert.KernelIdeal.ProjectedValue

end
-- ==== Proof.LibDotOps.lean ====
/-
  General lemmas: two more matrix products read at an index, at the ideal instance.

  * a matrix product whose RIGHT operand is read transposed, `[M,K]·[N,K]ᵀ` (both operands contract their axis 1), into a
    zero accumulator, at `(p, c)`, is `Σ k, lhs (p, k) · rhs (c, k)`;
  * the host's plain `dot_general` `[M,K]·[K,N]`, at `(p, c)`, is `Σ k, lhs (p, k) · rhs (k, c)`.
-/
import Idealize.ShloMosaic.PureOps.Ideal.Laws
import Idealize.ShloMosaic.Lib.ValueIdx

noncomputable section

namespace Cert.DotOps

open Idealize.ShloMosaic Idealize.ShloMosaic.ValueIdx

/-- A matrix product `[M,K]·[N,K]ᵀ` (each operand contracts its columns; the result's rows are the left operand's rows and
    its columns the right operand's rows) into the zero accumulator, read at `(p, c)`: the sum over `k` of
    `lhs (p, k) · rhs (c, k)`. -/
theorem matmulNT_apply {M K N : ℕ} {φ₁ φ₂ : FTy}
    (wf : DotDims.WF ⟨2, ![M, K]⟩ ⟨2, ![N, K]⟩ ⟨2, ![M, N]⟩ [1] [1] [0] [0] [] [])
    (prec : Option ContractPrecision) (lhs : FVec Ideal ⟨2, ![M, K]⟩ φ₁) (rhs : FVec Ideal ⟨2, ![N, K]⟩ φ₂)
    (p : Fin M) (c : Fin N) :
    FloatOps.matmul (⟨[1], [1], [0], [0], [], [], wf⟩ : DotDims ⟨2, ![M, K]⟩ ⟨2, ![N, K]⟩ ⟨2, ![M, N]⟩) prec lhs rhs
        (constant ⟨2, ![M, N]⟩ .f32 0x00000000#32) (ix2 p c)
      = ∑ k : Fin K, lhs (ix2 p k) * rhs (ix2 c k) := by
  set D : DotDims ⟨2, ![M, K]⟩ ⟨2, ![N, K]⟩ ⟨2, ![M, N]⟩ := ⟨[1], [1], [0], [0], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (i 1).val := by
    intro i q
    unfold DotDims.rhsIdx
    rw [dif_neg (show ¬(0 : Fin 2) ∈ D.rhsBatch from List.not_mem_nil), dif_pos (show (0 : Fin 2) ∈ D.rhsNonContracting from List.mem_singleton.mpr rfl)]
    rfl
  have r1 : ∀ (i : (⟨2, ![M, N]⟩ : Shape).Idx) (q : D.contr.Idx), (D.rhsIdx i q 1).val = (q ⟨0, Nat.one_pos⟩).val :=
    fun i q => D.rhsIdx_val_of_single rfl i q
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 c k := funext fun ax => Fin.ext (by
    match ax with
    | ⟨0, _⟩ => exact r0 _ _
    | ⟨1, _⟩ => exact (r1 _ _).trans hk)
  rw [el, er]

/-- The host's plain `dot_general` `[M,K]·[K,N]` (the left operand's columns against the right operand's rows), read at
    `(p, c)`: the sum over `k` of `lhs (p, k) · rhs (k, c)`. -/
theorem hostDot_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    Host.dotGeneral (⟨[1], [0], [0], [1], [], [], wf⟩ : DotDims ⟨2, ![M, K]⟩ ⟨2, ![K, N]⟩ ⟨2, ![M, N]⟩) prec lhs rhs (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  simp only [Host.dotGeneral]
  rw [Ideal.dotGeneral_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.DotOps

end
-- ==== Proof.ScoresValue.lean ====
/-
  The second tiled product: the array it leaves is the scores over the arrays it finds.

  The grid is 4 × 4; point `(r, s)` reads rows `1024·r …` of the projected targets `P`, rows `1024·s …` of the
  arguments `A`, the matching 1024 entries of the targets' column and of the arguments' row, and the bias. It contracts
  the two blocks over their columns (the right block read transposed; narrowing to bf16 is the identity on extended
  reals and the accumulator starts at zero), spreads the column along rows and the row along columns, and adds, so
  entry `(p, q)` of the block it writes is

      (Σ_k x[p,k]·a[q,k] + (col[p] + row[q])) + b[0].

  That is block `(r, s)` of `scores P A col row b`; the sixteen blocks cover the `[4096, 4096]` output, so the output
  array ends at `scores` of the five arrays as the region finds them.
-/
import proofs.«142175_j24129126269150_1_alg».proof.Proof.Gen.KernelIdeal.Frame
import proofs.«142175_j24129126269150_1_alg».proof.Proof.Spec
import proofs.«142175_j24129126269150_1_alg».proof.Proof.LibRowOps
import proofs.«142175_j24129126269150_1_alg».proof.Proof.LibDotOps
import Idealize.ShloMosaic.Lib.Pipeline.Value
import Idealize.ShloMosaic.Lib.ValueIdx
import Idealize.ShloMosaic.Lib.ValueLayout

set_option maxRecDepth 16384

noncomputable section

namespace Cert.KernelIdeal.ScoresValue

open Cert.KernelIdeal Cert.KernelIdeal.Gen Cert.Biaffine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl
theorem offset_zero : (![0] : Fin 1 → Nat) = fun _ => 0 := funext fun a => by fin_cases a; rfl

/-- The body's result at `(p, q)`: row `p` of the first block against row `q` of the second, plus the column's entry
    `p` and the row's entry `q`, plus the bias. -/
theorem score_apply (x0 x1 : Vec Ideal S1024x1024 .f32) (x2 : Vec Ideal S1024x1 .f32) (x3 : Vec Ideal S1x1024 .f32)
    (x4 : Vec Ideal S1 .f32) (p q : Fin 1024) :
    k1_pay1 (F := Ideal) x0 x1 x2 x3 x4 (ix2 p q)
      = ((∑ k : Fin 1024, x0 (ix2 p k) * x1 (ix2 q k)) + (x2 (ix2 p (0 : Fin 1)) + x3 (ix2 (0 : Fin 1) q)))
          + x4 (ix1 (0 : Fin 1)) := by
  have hm : matmul (F := Ideal) dot_S1024x1024_S1024x1024_S1024x1024_1_1_0_0_n_n none
        (truncf .bf16 (shapeCast S1024x1024 x0 shapeCasts_S1024x1024_S1024x1024) bitsLt_bf16_f32) (truncf .bf16 x1 bitsLt_bf16_f32)
        (constant S1024x1024 .f32 0x00000000#32) (ix2 p q) = ∑ k : Fin 1024, x0 (ix2 p k) * x1 (ix2 q k) := by
    rw [shapeCast_self]
    exact Cert.DotOps.matmulNT_apply _ none _ _ p q
  have hcol : broadcastTo S1024x1024 (shapeCast S1024x1 x2 shapeCasts_S1024x1_S1024x1) broadcasts_S1024x1_S1024x1024 (ix2 p q)
      = x2 (ix2 p (0 : Fin 1)) := by
    rw [shapeCast_self]; exact Cert.RowOps.broadcastTo_a1_ab_apply _ _ p q
  have hrow : broadcastTo S1024x1024 (shapeCast S1x1024 x3 shapeCasts_S1x1024_S1x1024) broadcasts_S1x1024_S1024x1024 (ix2 p q)
      = x3 (ix2 (0 : Fin 1) q) := by
    rw [shapeCast_self]; exact broadcastTo_1b_ab_apply _ _ p q
  have hb : extractAt ![0] x4 inpos_S1_p0 = x4 (ix1 (0 : Fin 1)) :=
    congrArg x4 (funext fun a => match a with | ⟨0, _⟩ => rfl)
  unfold k1_pay1
  show (matmul (F := Ideal) dot_S1024x1024_S1024x1024_S1024x1024_1_1_0_0_n_n none
        (truncf .bf16 (shapeCast S1024x1024 x0 shapeCasts_S1024x1024_S1024x1024) bitsLt_bf16_f32) (truncf .bf16 x1 bitsLt_bf16_f32)
        (constant S1024x1024 .f32 0x00000000#32) (ix2 p q)
      + (broadcastTo S1024x1024 (shapeCast S1024x1 x2 shapeCasts_S1024x1_S1024x1) broadcasts_S1024x1_S1024x1024 (ix2 p q)
          + broadcastTo S1024x1024 (shapeCast S1x1024 x3 shapeCasts_S1x1024_S1x1024) broadcasts_S1x1024_S1024x1024 (ix2 p q)))
      + extractAt ![0] x4 inpos_S1_p0 = _
  rw [hm, hcol, hrow, hb]

/-- The same at any index of the block. -/
theorem score_at (x0 x1 : Vec Ideal S1024x1024 .f32) (x2 : Vec Ideal S1024x1 .f32) (x3 : Vec Ideal S1x1024 .f32)
    (x4 : Vec Ideal S1 .f32) (y : S1024x1024.Idx) :
    k1_pay1 (F := Ideal) x0 x1 x2 x3 x4 y
      = ((∑ k : Fin 1024, x0 (ix2 (y 0) k) * x1 (ix2 (y 1) k)) + (x2 (ix2 (y 0) (0 : Fin 1)) + x3 (ix2 (0 : Fin 1) (y 1))))
          + x4 (ix1 (0 : Fin 1)) := by
  conv_lhs => rw [eq_ix2 y]
  exact score_apply x0 x1 x2 x3 x4 (y 0) (y 1)

/-- The index maps over the sixteen points: the projected targets' and the column's blocks follow the output's row
    block, the arguments' and the row's blocks follow the output's column block, the bias stays. -/
theorem index_facts : ∀ t : Fin cfg1.N,
    win1_0.index t (0 : Fin 2) = win1_5.index t (0 : Fin 2) ∧ win1_0.index t (1 : Fin 2) = 0
    ∧ win1_1.index t (0 : Fin 2) = win1_5.index t (1 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = win1_5.index t (1 : Fin 2)
    ∧ win1_4.index t (0 : Fin 1) = 0
    ∧ win1_5.index t (0 : Fin 2) ≤ 3 ∧ win1_5.index t (1 : Fin 2) ≤ 3 :=
  (by decide +kernel : ∀ t : Fin grid1.N, _)

/-- Every block of the output is some point's. -/
theorem index_onto : ∀ (q0 q1 : Fin 4), ∃ t : Fin cfg1.N, win1_5.index t = ![q0.val, q1.val] :=
  (by decide +kernel : ∀ (q0 q1 : Fin 4), ∃ t : Fin grid1.N, win1_5.index t = ![q0.val, q1.val])

/-- An entry of the projected targets' block at point `t` is the entry of the array at the block's place. -/
theorem projected_block (c : Dev nD) (t : Fin cfg1.N) (x : S1024x1024.Idx) (i : S4096x1024.Idx)
    (h0 : (i 0).val = win1_0.index t (0 : Fin 2) * 1024 + (x 0).val) (h1 : (i 1).val = win1_0.index t (1 : Fin 2) * 1024 + (x 1).val) :
    (iblk1 V c 0 t : Vec Ideal S1024x1024 .f32) x = (V c main_v5 : S4096x1024.Idx → Elt Ideal .f32) i := by
  unfold iblk1
  rw [View.read_apply]
  show (V c main_v5 : S4096x1024.Idx → Elt Ideal .f32) _ = (V c main_v5 : S4096x1024.Idx → Elt Ideal .f32) i
  refine congrArg (V c main_v5 : S4096x1024.Idx → Elt Ideal .f32) (funext fun a => Fin.ext ?_)
  match a with
  | ⟨0, _⟩ => show win1_0.index t (0 : Fin 2) * 1024 + 1 * (x 0).val = (i 0).val; omega
  | ⟨1, _⟩ => show win1_0.index t (1 : Fin 2) * 1024 + 1 * (x 1).val = (i 1).val; omega

/-- An entry of the arguments' block. -/
theorem arguments_block (c : Dev nD) (t : Fin cfg1.N) (x : S1024x1024.Idx) (i : S4096x1024.Idx)
    (h0 : (i 0).val = win1_1.index t (0 : Fin 2) * 1024 + (x 0).val) (h1 : (i 1).val = win1_1.index t (1 : Fin 2) * 1024 + (x 1).val) :
    (iblk1 V c 1 t : Vec Ideal S1024x1024 .f32) x = (V c main_arg1 : S4096x1024.Idx → Elt Ideal .f32) i := by
  unfold iblk1
  rw [View.read_apply]
  show (V c main_arg1 : S4096x1024.Idx → Elt Ideal .f32) _ = (V c main_arg1 : S4096x1024.Idx → Elt Ideal .f32) i
  refine congrArg (V c main_arg1 : S4096x1024.Idx → Elt Ideal .f32) (funext fun a => Fin.ext ?_)
  match a with
  | ⟨0, _⟩ => show win1_1.index t (0 : Fin 2) * 1024 + 1 * (x 0).val = (i 0).val; omega
  | ⟨1, _⟩ => show win1_1.index t (1 : Fin 2) * 1024 + 1 * (x 1).val = (i 1).val; omega

/-- An entry of the column's block. -/
theorem column_block (c : Dev nD) (t : Fin cfg1.N) (x : S1024x1.Idx) (i : S4096x1.Idx)
    (h0 : (i 0).val = win1_2.index t (0 : Fin 2) * 1024 + (x 0).val) (h1 : (i 1).val = win1_2.index t (1 : Fin 2) * 1 + (x 1).val) :
    (iblk1 V c 2 t : Vec Ideal S1024x1 .f32) x = (V c main_v2 : S4096x1.Idx → Elt Ideal .f32) i := by
  unfold iblk1
  rw [View.read_apply]
  show (V c main_v2 : S4096x1.Idx → Elt Ideal .f32) _ = (V c main_v2 : S4096x1.Idx → Elt Ideal .f32) i
  refine congrArg (V c main_v2 : S4096x1.Idx → Elt Ideal .f32) (funext fun a => Fin.ext ?_)
  match a with
  | ⟨0, _⟩ => show win1_2.index t (0 : Fin 2) * 1024 + 1 * (x 0).val = (i 0).val; omega
  | ⟨1, _⟩ => show win1_2.index t (1 : Fin 2) * 1 + 1 * (x 1).val = (i 1).val; omega

/-- An entry of the row's block. -/
theorem row_block (c : Dev nD) (t : Fin cfg1.N) (x : S1x1024.Idx) (i : S1x4096.Idx)
    (h0 : (i 0).val = win1_3.index t (0 : Fin 2) * 1 + (x 0).val) (h1 : (i 1).val = win1_3.index t (1 : Fin 2) * 1024 + (x 1).val) :
    (iblk1 V c 3 t : Vec Ideal S1x1024 .f32) x = (V c main_v4 : S1x4096.Idx → Elt Ideal .f32) i := by
  unfold iblk1
  rw [View.read_apply]
  show (V c main_v4 : S1x4096.Idx → Elt Ideal .f32) _ = (V c main_v4 : S1x4096.Idx → Elt Ideal .f32) i
  refine congrArg (V c main_v4 : S1x4096.Idx → Elt Ideal .f32) (funext fun a => Fin.ext ?_)
  match a with
  | ⟨0, _⟩ => show win1_3.index t (0 : Fin 2) * 1 + 1 * (x 0).val = (i 0).val; omega
  | ⟨1, _⟩ => show win1_3.index t (1 : Fin 2) * 1024 + 1 * (x 1).val = (i 1).val; omega

/-- The bias's block is the bias. -/
theorem bias_block (c : Dev nD) (t : Fin cfg1.N) (x : S1.Idx) (i : S1.Idx)
    (h0 : (i 0).val = win1_4.index t (0 : Fin 1) * 1 + (x 0).val) :
    (iblk1 V c 4 t : Vec Ideal S1 .f32) x = (V c main_arg4 : S1.Idx → Elt Ideal .f32) i := by
  unfold iblk1
  rw [View.read_apply]
  show (V c main_arg4 : S1.Idx → Elt Ideal .f32) _ = (V c main_arg4 : S1.Idx → Elt Ideal .f32) i
  refine congrArg (V c main_arg4 : S1.Idx → Elt Ideal .f32) (funext fun a => Fin.ext ?_)
  match a with
  | ⟨0, _⟩ => show win1_4.index t (0 : Fin 1) * 1 + 1 * (x 0).val = (i 0).val; omega

/-- What point `t` writes back is block `t` of the scores over the five arrays the region finds. -/
theorem flushed_eq (c : Dev nD) (t : Fin cfg1.N) :
    (dat1 V c).flushed 5 t = ((cfg1.win 5).blk t).view.read (Elt Ideal)
      (scores (V c main_v5) (V c main_arg1) (V c main_v2) (V c main_v4) (V c main_arg4)) := by
  show (cfg1.win 5).cut (grid1.coords t) ((dat1 V c).after 5 t) = _
  rw [after1_5]
  unfold out1_5
  rw [View.canon_unit_zero offsets_zero]
  simp only [View.ld_unit_zero (S := S1024x1024) offsets_zero, View.ld_unit_zero (S := S1024x1) offsets_zero,
    View.ld_unit_zero (S := S1x1024) offsets_zero, View.ld_unit_zero (S := S1) offset_zero]
  obtain ⟨e0, e1, e2, e3, e4, e5, e6, e7, e8, e9, e10⟩ := index_facts t
  have key : ∀ y : S1024x1024.Idx,
      k1_pay1 (F := Ideal) (iblk1 V c 0 t) (iblk1 V c 1 t) (iblk1 V c 2 t) (iblk1 V c 3 t) (iblk1 V c 4 t) y
      = scores (V c main_v5) (V c main_arg1) (V c main_v2) (V c main_v4) (V c main_arg4) (((cfg1.win 5).blk t).view.emb y) := by
    intro y
    refine (score_at (iblk1 V c 0 t) (iblk1 V c 1 t) (iblk1 V c 2 t) (iblk1 V c 3 t) (iblk1 V c 4 t) y).trans ?_
    unfold scores
    have hr : ((((cfg1.win 5).blk t).view.emb y) 0).val = win1_5.index t (0 : Fin 2) * 1024 + 1 * (y 0).val := rfl
    have hc : ((((cfg1.win 5).blk t).view.emb y) 1).val = win1_5.index t (1 : Fin 2) * 1024 + 1 * (y 1).val := rfl
    have hP : ∀ k : Fin 1024, (iblk1 V c 0 t : Vec Ideal S1024x1024 .f32) (ix2 (y 0) k)
        = (V c main_v5 : S4096x1024.Idx → Elt Ideal .f32) (ix2 ((((cfg1.win 5).blk t).view.emb y) 0) k) := fun k =>
      projected_block V c t (ix2 (y 0) k) (ix2 ((((cfg1.win 5).blk t).view.emb y) 0) k)
        (by show ((((cfg1.win 5).blk t).view.emb y) 0).val = win1_0.index t (0 : Fin 2) * 1024 + (y 0).val; omega)
        (by show k.val = win1_0.index t (1 : Fin 2) * 1024 + k.val; omega)
    have hA : ∀ k : Fin 1024, (iblk1 V c 1 t : Vec Ideal S1024x1024 .f32) (ix2 (y 1) k)
        = (V c main_arg1 : S4096x1024.Idx → Elt Ideal .f32) (ix2 ((((cfg1.win 5).blk t).view.emb y) 1) k) := fun k =>
      arguments_block V c t (ix2 (y 1) k) (ix2 ((((cfg1.win 5).blk t).view.emb y) 1) k)
        (by show ((((cfg1.win 5).blk t).view.emb y) 1).val = win1_1.index t (0 : Fin 2) * 1024 + (y 1).val; omega)
        (by show k.val = win1_1.index t (1 : Fin 2) * 1024 + k.val; omega)
    have hC : (iblk1 V c 2 t : Vec Ideal S1024x1 .f32) (ix2 (y 0) (0 : Fin 1))
        = (V c main_v2 : S4096x1.Idx → Elt Ideal .f32) (ix2 ((((cfg1.win 5).blk t).view.emb y) 0) (0 : Fin 1)) :=
      column_block V c t (ix2 (y 0) (0 : Fin 1)) (ix2 ((((cfg1.win 5).blk t).view.emb y) 0) (0 : Fin 1))
        (by show ((((cfg1.win 5).blk t).view.emb y) 0).val = win1_2.index t (0 : Fin 2) * 1024 + (y 0).val; omega)
        (by show (0 : Nat) = win1_2.index t (1 : Fin 2) * 1 + 0; omega)
    have hR : (iblk1 V c 3 t : Vec Ideal S1x1024 .f32) (ix2 (0 : Fin 1) (y 1))
        = (V c main_v4 : S1x4096.Idx → Elt Ideal .f32) (ix2 (0 : Fin 1) ((((cfg1.win 5).blk t).view.emb y) 1)) :=
      row_block V c t (ix2 (0 : Fin 1) (y 1)) (ix2 (0 : Fin 1) ((((cfg1.win 5).blk t).view.emb y) 1))
        (by show (0 : Nat) = win1_3.index t (0 : Fin 2) * 1 + 0; omega)
        (by show ((((cfg1.win 5).blk t).view.emb y) 1).val = win1_3.index t (1 : Fin 2) * 1024 + (y 1).val; omega)
    have hB : (iblk1 V c 4 t : Vec Ideal S1 .f32) (ix1 (0 : Fin 1))
        = (V c main_arg4 : S1.Idx → Elt Ideal .f32) (ix1 (0 : Fin 1)) :=
      bias_block V c t (ix1 (0 : Fin 1)) (ix1 (0 : Fin 1)) (by show (0 : Nat) = win1_4.index t (0 : Fin 1) * 1 + 0; omega)
    rw [hC, hR, hB]
    refine congrArg (· + _) (congrArg (· + _) (Finset.sum_congr rfl fun k _ => ?_))
    rw [hP k, hA k]
  exact funext key

/-- An index of the output is in point `t`'s block iff each coordinate is in the block's range on its axis. -/
theorem mem_block (t : Fin cfg1.N) (i : S4096x4096.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v6).slice (win1_5.rect t)).set ↔ _
  rw [View.set_slice_whole, Rect.mem_set_unit]
  exact Iff.rfl

/-- Every index of the output is in the block of the point that holds its row block and column block. -/
theorem covered (i : S4096x4096.Idx) : ∃ t : Fin cfg1.N, (cfg1.win 5).flush t = true ∧ i ∈ ((cfg1.win 5).blk t).view.set := by
  have hi0 : (i 0).val < 4096 := (i 0).isLt
  have hi1 : (i 1).val < 4096 := (i 1).isLt
  obtain ⟨t, ht⟩ := index_onto ⟨(i 0).val / 1024, by omega⟩ ⟨(i 1).val / 1024, by omega⟩
  have q0 : win1_5.index t (0 : Fin 2) = (i 0).val / 1024 := congrFun ht 0
  have q1 : win1_5.index t (1 : Fin 2) = (i 1).val / 1024 := congrFun ht 1
  refine ⟨t, flush1_5 t, ?_⟩
  rw [mem_block]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 1024 ≤ (i 1).val ∧ (i 1).val < win1_5.index t (1 : Fin 2) * 1024 + 1024; omega

/-- The output array after the region: the scores over the five arrays as the region finds them. -/
theorem final (c : Dev nD) : (dat1 V c).arrAt 5 cfg1.N
    = scores (V c main_v5) (V c main_arg1) (V c main_v2) (V c main_v4) (V c main_arg4) :=
  (dat1 V c).arrAt_eq_of_cover 5 (scores (V c main_v5) (V c main_arg1) (V c main_v2) (V c main_v4) (V c main_arg4))
    (fun t _ => flushed_eq V c t) covered

end Cert.KernelIdeal.ScoresValue

end
-- ==== Proof.KernelValue.lean ====
/-
  The tiled program's result, as one function of its five arguments.

  Before the two tiled products the program computes, on the host, the targets' linear term `T·U[0:1024]` (a
  `[4096, 1]` column) and the arguments' linear term `A·U[1024:2048]` transposed to a `[1, 4096]` row; read at an index
  these are `targetTerm T U` and `argumentTerm A U`. The first product then leaves `projected T W` (nothing before it
  writes the targets or the weight), and the second, which finds that array, the arguments, the column, the row and the
  bias untouched, leaves `scores` over them: the biaffine scores of the arguments as launched.
-/
import proofs.«142175_j24129126269150_1_alg».proof.Proof.KernelRun
import proofs.«142175_j24129126269150_1_alg».proof.Proof.ProjectedValue
import proofs.«142175_j24129126269150_1_alg».proof.Proof.ScoresValue
import proofs.«142175_j24129126269150_1_alg».proof.Proof.LibDotOps
import Idealize.ShloMosaic.Lib.StableHlo.Run
import Idealize.ShloMosaic.Lib.ValueLayout

set_option maxRecDepth 16384

noncomputable section

namespace Cert.KernelIdeal.Composed

open Cert.KernelIdeal Cert.KernelIdeal.Gen Cert.Biaffine
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The five arguments as launched, at their shapes -/

abbrev targets (c : Dev nD) : FVec Ideal S4096x1024 .f32 := m ((c : Thread nD τ).loc main_arg0)
abbrev arguments (c : Dev nD) : FVec Ideal S4096x1024 .f32 := m ((c : Thread nD τ).loc main_arg1)
abbrev weight (c : Dev nD) : FVec Ideal S1024x1024 .f32 := m ((c : Thread nD τ).loc main_arg2)
abbrev linear (c : Dev nD) : FVec Ideal S2048x1 .f32 := m ((c : Thread nD τ).loc main_arg3)
abbrev bias (c : Dev nD) : FVec Ideal S1 .f32 := m ((c : Thread nD τ).loc main_arg4)

/-! ## What the first region is entered with -/

theorem entry_targets (c : Dev nD) : V1 m ρ c main_arg0 = targets m c := by
  show StableHlo.after hostOps0 (W0 m ρ c) (Proc.devRef .tc main_arg0) = _
  after_results
  try rfl

theorem entry_arguments (c : Dev nD) : V1 m ρ c main_arg1 = arguments m c := by
  show StableHlo.after hostOps0 (W0 m ρ c) (Proc.devRef .tc main_arg1) = _
  after_results
  try rfl

theorem entry_weight (c : Dev nD) : V1 m ρ c main_arg2 = weight m c := by
  show StableHlo.after hostOps0 (W0 m ρ c) (Proc.devRef .tc main_arg2) = _
  after_results
  try rfl

theorem entry_bias (c : Dev nD) : V1 m ρ c main_arg4 = bias m c := by
  show StableHlo.after hostOps0 (W0 m ρ c) (Proc.devRef .tc main_arg4) = _
  after_results
  try rfl

/-- The column the host computes: the targets against the upper half of the linear weight. -/
theorem entry_column_term (c : Dev nD) : (V1 m ρ c main_v2 : S4096x1.Idx → Elt Ideal .f32)
    = Host.dotGeneral (F := Ideal) dot_S4096x1024_S1024x1_S4096x1_1_0_0_1_n_n none (targets m c)
        (extractStridedSlice S1024x1 ![0, 0] (linear m c) slices_S2048x1_S1024x1_0_0) := by
  show StableHlo.after hostOps0 (W0 m ρ c) (Proc.devRef .tc main_v2) = _
  after_results
  try rfl

/-- The row the host computes: the arguments against the lower half of the linear weight, transposed. -/
theorem entry_row_term (c : Dev nD) : (V1 m ρ c main_v4 : S1x4096.Idx → Elt Ideal .f32)
    = transpose S1x4096 [1, 0] (Host.dotGeneral (F := Ideal) dot_S4096x1024_S1024x1_S4096x1_1_0_0_1_n_n none (arguments m c)
        (extractStridedSlice S1024x1 ![1024, 0] (linear m c) slices_S2048x1_S1024x1_1024_0)) transposes_S4096x1_S1x4096_1_0 := by
  show StableHlo.after hostOps0 (W0 m ρ c) (Proc.devRef .tc main_v4) = _
  after_results
  try rfl

/-- The host's plain product of a `[4096, 1024]` array with a `[1024, 1]` column, at `(p, q)`. -/
theorem hostProduct_apply (X : FVec Ideal S4096x1024 .f32) (S : FVec Ideal S1024x1 .f32) (p : Fin 4096) (q : Fin 1) :
    Host.dotGeneral (F := Ideal) dot_S4096x1024_S1024x1_S4096x1_1_0_0_1_n_n none X S (ix2 p q)
      = ∑ k : Fin 1024, X (ix2 p k) * S (ix2 k q) :=
  Cert.DotOps.hostDot_apply _ none X S p q

/-- The host's column at `(p, q)`: row `p` of the targets against the upper half of the linear weight. -/
theorem column_apply (T : FVec Ideal S4096x1024 .f32) (U : FVec Ideal S2048x1 .f32) (p : Fin 4096) (q : Fin 1) :
    Host.dotGeneral (F := Ideal) dot_S4096x1024_S1024x1_S4096x1_1_0_0_1_n_n none T
        (extractStridedSlice S1024x1 ![0, 0] U slices_S2048x1_S1024x1_0_0) (ix2 p q)
      = targetTerm T U (ix2 p q) := by
  refine (hostProduct_apply T _ p q).trans ?_
  unfold targetTerm
  refine Finset.sum_congr rfl fun k _ => ?_
  exact congrArg (T (ix2 p k) * ·) (slice2_axis0_eq 0 U slices_S2048x1_S1024x1_0_0 k q)

/-- The host's row at `(q, p)`: row `p` of the arguments against the lower half of the linear weight. -/
theorem row_apply (A : FVec Ideal S4096x1024 .f32) (U : FVec Ideal S2048x1 .f32) (q : Fin 1) (p : Fin 4096) :
    transpose S1x4096 [1, 0] (Host.dotGeneral (F := Ideal) dot_S4096x1024_S1024x1_S4096x1_1_0_0_1_n_n none A
        (extractStridedSlice S1024x1 ![1024, 0] U slices_S2048x1_S1024x1_1024_0)) transposes_S4096x1_S1x4096_1_0 (ix2 q p)
      = argumentTerm A U (ix2 q p) := by
  have ht : ∀ Y : FVec Ideal S4096x1 .f32, transpose S1x4096 [1, 0] Y transposes_S4096x1_S1x4096_1_0 (ix2 q p) = Y (ix2 p q) :=
    fun Y => transpose_ix2_apply Y transposes_S4096x1_S1x4096_1_0 q p
  refine (ht _).trans ?_
  refine (hostProduct_apply A _ p q).trans ?_
  unfold argumentTerm
  refine Finset.sum_congr rfl fun k _ => ?_
  exact congrArg (A (ix2 p k) * ·) (slice2_axis0_eq 1024 U slices_S2048x1_S1024x1_1024_0 k q)

/-- Read at an index, the column is the targets' linear term. -/
theorem entry_column (c : Dev nD) : (V1 m ρ c main_v2 : S4096x1.Idx → Elt Ideal .f32)
    = targetTerm (targets m c) (linear m c) := by
  rw [entry_column_term]
  funext i
  obtain ⟨p, q, rfl⟩ : ∃ (p : Fin 4096) (q : Fin 1), i = ix2 p q := ⟨i 0, i 1, eq_ix2 i⟩
  exact column_apply (targets m c) (linear m c) p q

/-- Read at an index, the row is the arguments' linear term. -/
theorem entry_row (c : Dev nD) : (V1 m ρ c main_v4 : S1x4096.Idx → Elt Ideal .f32)
    = argumentTerm (arguments m c) (linear m c) := by
  rw [entry_row_term]
  funext i
  obtain ⟨q, p, rfl⟩ : ∃ (q : Fin 1) (p : Fin 4096), i = ix2 q p := ⟨i 0, i 1, eq_ix2 i⟩
  exact row_apply (arguments m c) (linear m c) q p

/-! ## The second region's output array -/

/-- The second region's output after its write-backs: the biaffine scores of the arguments as launched. -/
theorem result_eq (c : Dev nD) : (dat1 (V2 m ρ) c).arrAt 5 cfg1.N
    = biaffine (targets m c) (arguments m c) (weight m c) (linear m c) (bias m c) := by
  have hP : V2 m ρ c main_v5 = projected (targets m c) (weight m c) :=
    (W2_arr m ρ c 2).trans ((Cert.KernelIdeal.ProjectedValue.final (V1 m ρ) c).trans (by rw [entry_targets, entry_weight]))
  have hA : V2 m ρ c main_arg1 = arguments m c :=
    (W2_of_ne m ρ c main_arg1 (by decide)).trans (entry_arguments m ρ c)
  have hC : V2 m ρ c main_v2 = targetTerm (targets m c) (linear m c) :=
    (W2_of_ne m ρ c main_v2 (by decide)).trans (entry_column m ρ c)
  have hR : V2 m ρ c main_v4 = argumentTerm (arguments m c) (linear m c) :=
    (W2_of_ne m ρ c main_v4 (by decide)).trans (entry_row m ρ c)
  have hB : V2 m ρ c main_arg4 = bias m c :=
    (W2_of_ne m ρ c main_arg4 (by decide)).trans (entry_bias m ρ c)
  rw [Cert.KernelIdeal.ScoresValue.final (V2 m ρ) c, hP, hA, hC, hR, hB]
  rfl

/-- The run, read: the result buffer ends at the biaffine scores of the arguments, the arguments unchanged. -/
theorem run : θ_run defs (onTc (τ := τ) (main (F := Ideal))) ⟨m, fun _ => 0, ρ⟩ (fun r => ∀ c : Dev nD,
      r.2.mem ((c.tc : Thread nD τ).loc main_v6)
        = biaffine (targets m c) (arguments m c) (weight m c) (linear m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩)
    (Cert.KernelIdeal.GenRun.run_result (F := Ideal) m ρ)

end Cert.KernelIdeal.Composed

end
-- ==== Proof.ReferenceValue.lean ====
/-
  The reference's result is the same function of the five arguments.

  Read one operation at a time, the reference's result at `(i, j)` is
  `(Σ_h (Σ_k T[i,k]·W[k,h]) · Aᵀ[h,j] + (col[i] + row[j])) + b[0]`, with `Aᵀ[h,j] = A[j,h]`, `col` the targets against the
  upper half of the linear weight and `row` the arguments against its lower half, transposed: the biaffine scores, with
  the same grouping of the sums and the additions, so no law of arithmetic is needed, only the indices.
-/
import proofs.«142175_j24129126269150_1_alg».proof.Proof.Gen.ReferenceIdeal.Read
import proofs.«142175_j24129126269150_1_alg».proof.Proof.Spec

set_option maxRecDepth 16384

noncomputable section

namespace Cert.ReferenceIdeal.Scores

open Cert.ReferenceIdeal Cert.ReferenceIdeal.Read Cert.Biaffine
open Idealize.ShloMosaic Idealize.ShloMosaic.ValueIdx

/-- The reference's last stage is the biaffine scores of its arguments. -/
theorem stage_eq (x0 x1 : FVec Ideal S4096x1024 .f32) (x2 : FVec Ideal S1024x1024 .f32) (x3 : FVec Ideal S2048x1 .f32)
    (x4 : FVec Ideal S1 .f32) : val_main_v14 (F := Ideal) x0 x1 x2 x3 x4 = biaffine x0 x1 x2 x3 x4 := by
  funext i
  rw [val_main_v14_apply, val_main_v11_apply, val_main_v10_apply, val_main_v2_apply, val_main_v8_apply, val_main_v9_apply,
    val_main_v13_apply, val_main_v12_apply, val_main_v5_apply, val_main_v7_apply, val_main_v6_apply]
  simp only [val_main_v0_apply, val_main_v1_apply, val_main_v3_apply, val_main_v4_apply]
  unfold biaffine scores projected targetTerm argumentTerm
  show (_ + (_ + _)) + _ = (_ + (_ + _)) + _
  refine congrArg₂ (· + ·) (congrArg₂ (· + ·) (Finset.sum_congr rfl fun h _ => ?_)
    (congrArg₂ (· + ·) (Finset.sum_congr rfl fun k _ => ?_) (Finset.sum_congr rfl fun k _ => ?_))) ?_
  · refine congrArg₂ (· * ·) (Finset.sum_congr rfl fun k _ => congrArg₂ (· * ·) ?_ ?_) ?_
    · exact congrArg x0 (funext fun a => Fin.ext (by match a with | ⟨0, _⟩ => rfl | ⟨1, _⟩ => rfl))
    · exact congrArg x2 (funext fun a => Fin.ext (by match a with | ⟨0, _⟩ => rfl | ⟨1, _⟩ => rfl))
    · exact congrArg x1 (funext fun a => Fin.ext (by match a with | ⟨0, _⟩ => rfl | ⟨1, _⟩ => rfl))
  · refine congrArg₂ (· * ·) ?_ ?_
    · exact congrArg x0 (funext fun a => Fin.ext (by match a with | ⟨0, _⟩ => rfl | ⟨1, _⟩ => rfl))
    · exact congrArg x3 (funext fun a => Fin.ext (by match a with | ⟨0, _⟩ => exact (Nat.zero_add _).symm | ⟨1, _⟩ => rfl))
  · refine congrArg₂ (· * ·) ?_ ?_
    · exact congrArg x1 (funext fun a => Fin.ext (by match a with | ⟨0, _⟩ => rfl | ⟨1, _⟩ => rfl))
    · exact congrArg x3 (funext fun a => Fin.ext (by match a with | ⟨0, _⟩ => rfl | ⟨1, _⟩ => rfl))
  · exact congrArg x4 (funext fun a => Fin.ext (by match a with | ⟨0, _⟩ => rfl))

end Cert.ReferenceIdeal.Scores

end
-- ==== Proof.lean ====
/-
  Biaffine span scoring, tiled, against its plain reference, over the extended reals.

  Both programs take target spans `T` and argument spans `A` (`[4096, 1024]`), a bilinear weight `W` (`[1024, 1024]`),
  a linear weight `U` (`[2048, 1]`) and a bias `b` (`[1]`), and return the `[4096, 4096]` scores

      out[i, j] = ( Σ_h (Σ_k T[i,k]·W[k,h]) · A[j,h]  +  ( Σ_k T[i,k]·U[k] + Σ_k A[j,k]·U[1024+k] ) )  +  b[0].

  The tiled program forms the two linear terms on the host, then `T·W` in four row blocks, then the scores in sixteen
  `1024 × 1024` blocks, each block a product of a row block of `T·W` with a row block of `A` read transposed, plus the
  matching pieces of the column and the row, plus the bias; its matrix products narrow their operands to bf16, which is
  the identity on extended reals, and start from a zero accumulator. The reference computes `(T·W)·Aᵀ`, adds the
  broadcast column and row, and adds the bias. Every sum and every addition is grouped the same way on both sides, so the
  two results are the same term index by index (`Cert.Biaffine.biaffine`) and no law of arithmetic, hence no finiteness of
  the inputs, is used. The idealization rewrote nothing, so the program is its own idealization.
-/
import proofs.«142175_j24129126269150_1_alg».proof.Defs
import proofs.«142175_j24129126269150_1_alg».proof.Proof.Gen.Kernel
import proofs.«142175_j24129126269150_1_alg».proof.Proof.Gen.Kernel.Frame
import proofs.«142175_j24129126269150_1_alg».proof.Proof.Gen.KernelIdeal
import proofs.«142175_j24129126269150_1_alg».proof.Proof.Gen.KernelIdeal.Frame
import proofs.«142175_j24129126269150_1_alg».proof.Proof.Gen.ReferenceIdeal
import proofs.«142175_j24129126269150_1_alg».proof.Proof.Gen.Pre_finite_inputs
import proofs.«142175_j24129126269150_1_alg».proof.Proof.Gen.ReferenceIdeal.Run
import proofs.«142175_j24129126269150_1_alg».proof.Proof.Gen.ReferenceIdeal.Read
import proofs.«142175_j24129126269150_1_alg».proof.Proof.KernelValue
import proofs.«142175_j24129126269150_1_alg».proof.Proof.ReferenceValue
import Idealize.ShloMosaic.Adequacy
import Idealize.ShloMosaic.Init

noncomputable section

namespace Cert.Proof

open Idealize.ShloMosaic Idealize.ShloMosaic.TcCoe Idealize.SL.Sem

/-- The tiled program runs and leaves its arguments as launched. -/
theorem frame_kernel : Cert.frame_Kernel := fun m ρ _ => Cert.Kernel.Gen.frame m ρ

/-- So does it read over the extended reals. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the program was read over the extended reals. -/
theorem preserves : Cert.preserves_Kernel_KernelIdeal := trivial

/-- From memories agreeing on the five arguments both programs end with the biaffine scores of those arguments. -/
theorem algebraic : Cert.algebraic_KernelIdeal_ReferenceIdeal := by
  intro m ρ m' ρ' _ hagree
  refine ⟨fun c => Cert.Biaffine.biaffine
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.Composed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Scores.stage_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
